-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S2048x256 : Shape := ⟨2, ![2048, 256]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x256, .bf16⟩
  | .hbm, ⟨3, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S2048x256, .f32⟩
  | .local _ .vmem, ⟨4, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x256 : S2048x1.Broadcasts S2048x256
  dot_S2048x256_S1024x256_S2048x1024_1_1_0_0_n_n_wf : DotDims.WF S2048x256 S1024x256 S2048x1024 [1] [1] [0] [0] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S256x1024 : Shape := ⟨2, ![256, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x256, .f32⟩
  | .hbm, ⟨42, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S1024x256_S256x1024_1_0 : S1024x256.Transposes [1, 0] S256x1024
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.RowLaw.lean ====
/-
  One row of memory-bank attention, as arithmetic on the extended reals.

  A row of scores `a j` (one per bank slot `j`) is turned into a row of weights in two steps and the weights mix
  the bank's column `bd j`:

    e j = exp (a j - max a),   p j = e j / Σ e            (a softmax)
    s j = softshrink_λ (p j)                               (the small weights cut to zero)
    out = tanh (Σ_j softmax(s) j · bd j)                   (a second softmax, then the mix)

  Two spellings of this row are compared. The fused spelling multiplies by the reciprocal `1 / Σ e`, shrinks by
  `max (p - λ) 0` (the weights are positive, so the sign and the absolute value of the textbook soft threshold do
  nothing), leaves out the second softmax's shift by its maximum, and divides by its normaliser only after the mix:
  `(Σ_j exp (s j) · bd j) · (1 / Σ_j exp (s j))`. The textbook spelling divides, shrinks by
  `sign p · max (|p| - λ) 0`, shifts by `max s` and normalises every weight before the mix.

  On real scores, a real threshold and a real bank column the two agree: every intermediate value is a real number
  (the maximum of finitely many reals is real, an exponential is positive, a sum of positives is positive), the shift
  cancels because `exp (s - M) = exp s · exp (-M)`, and a common factor moves across a finite sum. At an infinite
  score the two would part, which is why the law is stated over reals.
-/
import Idealize.ShloMosaic.PureOps.Ideal
import Idealize.ShloMosaic.PureOps.Ideal.Laws

noncomputable section

namespace Cert.MemAttn

open Idealize.ShloMosaic
open scoped BigOperators

variable {ι : Type} [Fintype ι]

/-! ## Reals inside the extended reals -/

/-- The larger of two reals, read in the extended reals, is the larger of the readings. -/
theorem coe_max (x y : ℝ) : max (x : EReal) (y : EReal) = ((max x y : ℝ) : EReal) :=
  (EReal.coe_strictMono.monotone.map_max).symm

/-- The same against zero. -/
theorem coe_max_zero (x : ℝ) : max (x : EReal) 0 = ((max x 0 : ℝ) : EReal) := by
  rw [← EReal.coe_zero, coe_max]

/-- A finite sum of reals, read in the extended reals, is the sum of the readings. -/
theorem coe_sum (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The running maximum from `-∞` over a finite set of reals is `-∞` on the empty set and a real otherwise. -/
theorem fold_max_bot_or_real (s : Finset ι) (f : ι → ℝ) :
    (s = ∅ ∧ s.fold max (⊥ : EReal) (fun j => (f j : EReal)) = ⊥)
      ∨ ∃ r : ℝ, s.fold max (⊥ : EReal) (fun j => (f j : EReal)) = (r : EReal) := by
  classical
  induction s using Finset.induction_on with
  | empty => exact Or.inl ⟨rfl, Finset.fold_empty⟩
  | insert a s ha ih =>
    right
    rw [Finset.fold_insert ha]
    rcases ih with ⟨_, h⟩ | ⟨r, h⟩
    · exact ⟨f a, by rw [h, max_bot_right]⟩
    · exact ⟨max (f a) r, by rw [h, coe_max]⟩

/-- So a row's maximum over a nonempty index set is a real number. -/
theorem fold_max_real [Nonempty ι] (f : ι → ℝ) :
    ∃ r : ℝ, (Finset.univ : Finset ι).fold max (⊥ : EReal) (fun j => (f j : EReal)) = (r : EReal) := by
  rcases fold_max_bot_or_real (Finset.univ : Finset ι) f with ⟨h, _⟩ | h
  · exact absurd h Finset.univ_nonempty.ne_empty
  · exact h

/-! ## The two spellings of a row -/

/-- The first softmax's numerators: the scores shifted by their maximum, exponentiated. -/
def expShift (a : ι → EReal) (j : ι) : EReal :=
  Ideal.exp (a j - (Finset.univ : Finset ι).fold max ⊥ a)

/-- The fused spelling's shrunk weights: the numerator times the reciprocal of the row's sum, less the threshold,
    cut at zero. -/
def shrunkFused (lam : EReal) (a : ι → EReal) (j : ι) : EReal :=
  max (expShift a j * Ideal.div 1 (∑ k, expShift a k) - lam) 0

/-- The textbook spelling's weight: the numerator over the row's sum. -/
def weight (a : ι → EReal) (j : ι) : EReal :=
  Ideal.div (expShift a j) (∑ k, expShift a k)

/-- The textbook soft threshold of a weight: its sign times its magnitude less the threshold, cut at zero. -/
def shrunkText (lam : EReal) (a : ι → EReal) (j : ι) : EReal :=
  Ideal.sign (weight a j) * max (max (weight a j) (-(weight a j)) - lam) 0

/-- The fused mix: unnormalised second-softmax weights mix the column, the normaliser applied after. -/
def mixFused (s bd : ι → EReal) : EReal :=
  Ideal.tanh ((∑ j, Ideal.exp (s j) * bd j) * Ideal.div 1 (∑ j, Ideal.exp (s j)))

/-- The textbook mix: the second softmax shifted by its maximum and normalised weight by weight, then the mix. -/
def mixText (s bd : ι → EReal) : EReal :=
  Ideal.tanh (∑ j, Ideal.div (Ideal.exp (s j - (Finset.univ : Finset ι).fold max ⊥ s))
      (∑ k, Ideal.exp (s k - (Finset.univ : Finset ι).fold max ⊥ s)) * bd j)

/-- A row in the fused spelling. -/
def rowFused (lam : EReal) (a bd : ι → EReal) : EReal := mixFused (shrunkFused lam a) bd

/-- A row in the textbook spelling. -/
def rowText (lam : EReal) (a bd : ι → EReal) : EReal := mixText (shrunkText lam a) bd

/-! ## The law over the reals -/

/-- Shifting every exponent by the same `M` changes neither softmax weights nor their mix: the factor `exp (-M)`
    cancels between numerator and normaliser, and the normaliser moves out of the sum. -/
theorem softmax_shift_real (s bd : ι → ℝ) (M : ℝ) (hE : 0 < ∑ k, Real.exp (s k)) :
    ∑ j, (Real.exp (s j - M) * (1 / ∑ k, Real.exp (s k - M))) * bd j
      = (∑ j, Real.exp (s j) * bd j) * (1 / ∑ k, Real.exp (s k)) := by
  have hc : Real.exp (-M) ≠ 0 := (Real.exp_pos _).ne'
  have hE' : (∑ k, Real.exp (s k)) ≠ 0 := hE.ne'
  have hsub : ∀ j, Real.exp (s j - M) = Real.exp (s j) * Real.exp (-M) := fun j => by
    rw [sub_eq_add_neg, Real.exp_add]
  have hden : ∑ k, Real.exp (s k - M) = (∑ k, Real.exp (s k)) * Real.exp (-M) := by
    rw [Finset.sum_mul]; exact Finset.sum_congr rfl fun k _ => hsub k
  rw [hden, Finset.sum_mul Finset.univ (fun j => Real.exp (s j) * bd j) (1 / ∑ k, Real.exp (s k))]
  refine Finset.sum_congr rfl fun j _ => ?_
  rw [hsub j]
  field_simp

/-- The two mixes agree on real shrunk weights and a real column. -/
theorem mix_law [Nonempty ι] (s bd : ι → ℝ) :
    mixFused (fun j => (s j : EReal)) (fun j => (bd j : EReal))
      = mixText (fun j => (s j : EReal)) (fun j => (bd j : EReal)) := by
  obtain ⟨M, hM⟩ := fold_max_real s
  have hE : 0 < ∑ k, Real.exp (s k) := Finset.sum_pos (fun k _ => Real.exp_pos _) Finset.univ_nonempty
  have hE2 : 0 < ∑ k, Real.exp (s k - M) := Finset.sum_pos (fun k _ => Real.exp_pos _) Finset.univ_nonempty
  have e1 : ∀ j, Ideal.exp ((s j : ℝ) : EReal) = ((Real.exp (s j) : ℝ) : EReal) := fun j => Ideal.exp_coe _
  have e2 : ∀ j, Ideal.exp (((s j : ℝ) : EReal) - (M : EReal)) = ((Real.exp (s j - M) : ℝ) : EReal) := fun j => by
    rw [← EReal.coe_sub, Ideal.exp_coe]
  have hA : ∑ j, Ideal.exp ((s j : ℝ) : EReal) * ((bd j : ℝ) : EReal) = ((∑ j, Real.exp (s j) * bd j : ℝ) : EReal) := by
    rw [← coe_sum]; exact Finset.sum_congr rfl fun j _ => by rw [e1, EReal.coe_mul]
  have hB : ∑ j, Ideal.exp ((s j : ℝ) : EReal) = ((∑ j, Real.exp (s j) : ℝ) : EReal) := by
    rw [← coe_sum]; exact Finset.sum_congr rfl fun j _ => e1 j
  have hC : ∑ k, Ideal.exp (((s k : ℝ) : EReal) - (M : EReal)) = ((∑ k, Real.exp (s k - M) : ℝ) : EReal) := by
    rw [← coe_sum]; exact Finset.sum_congr rfl fun k _ => e2 k
  have hD : ∑ j, Ideal.div (Ideal.exp (((s j : ℝ) : EReal) - (M : EReal))) (∑ k, Ideal.exp (((s k : ℝ) : EReal) - (M : EReal)))
        * ((bd j : ℝ) : EReal)
      = ((∑ j, (Real.exp (s j - M) * (1 / ∑ k, Real.exp (s k - M))) * bd j : ℝ) : EReal) := by
    rw [← coe_sum, hC]
    exact Finset.sum_congr rfl fun j _ => by rw [e2, Ideal.div_coe hE2.ne', EReal.coe_mul, EReal.coe_mul]
  unfold mixFused mixText
  rw [hM, hA, hB, hD, Ideal.div_coe hE.ne', one_mul, ← EReal.coe_mul, softmax_shift_real s bd M hE]

/-- THE ROW LAW: on real scores, a real threshold and a real column the fused and the textbook spelling of a row are
    one extended real. -/
theorem row_law [Nonempty ι] (lam : ℝ) (ar br : ι → ℝ) :
    rowFused (lam : EReal) (fun j => (ar j : EReal)) (fun j => (br j : EReal))
      = rowText (lam : EReal) (fun j => (ar j : EReal)) (fun j => (br j : EReal)) := by
  obtain ⟨M, hM⟩ := fold_max_real ar
  have hexp : ∀ j, expShift (fun j => (ar j : EReal)) j = ((Real.exp (ar j - M) : ℝ) : EReal) := fun j => by
    unfold expShift; rw [hM, ← EReal.coe_sub, Ideal.exp_coe]
  have hS : 0 < ∑ k, Real.exp (ar k - M) := Finset.sum_pos (fun k _ => Real.exp_pos _) Finset.univ_nonempty
  have hsum : ∑ k, expShift (fun j => (ar j : EReal)) k = ((∑ k, Real.exp (ar k - M) : ℝ) : EReal) := by
    rw [← coe_sum]; exact Finset.sum_congr rfl fun k _ => hexp k
  have hF : shrunkFused (lam : EReal) (fun j => (ar j : EReal))
      = fun j => ((max (Real.exp (ar j - M) * (1 / ∑ k, Real.exp (ar k - M)) - lam) 0 : ℝ) : EReal) := funext fun j => by
    unfold shrunkFused
    rw [hexp, hsum, Ideal.div_coe hS.ne', one_mul, ← EReal.coe_mul, ← EReal.coe_sub, coe_max_zero]
  have hT : shrunkText (lam : EReal) (fun j => (ar j : EReal))
      = fun j => ((max (Real.exp (ar j - M) * (1 / ∑ k, Real.exp (ar k - M)) - lam) 0 : ℝ) : EReal) := funext fun j => by
    have hp : 0 < Real.exp (ar j - M) * (1 / ∑ k, Real.exp (ar k - M)) :=
      mul_pos (Real.exp_pos _) (one_div_pos.mpr hS)
    have hmag : max (Real.exp (ar j - M) * (1 / ∑ k, Real.exp (ar k - M)))
          (-(Real.exp (ar j - M) * (1 / ∑ k, Real.exp (ar k - M))))
        = Real.exp (ar j - M) * (1 / ∑ k, Real.exp (ar k - M)) := max_eq_left (by linarith)
    unfold shrunkText weight
    rw [hexp, hsum, Ideal.div_coe hS.ne', ← EReal.coe_mul, Ideal.sign_of_pos (EReal.coe_pos.mpr hp), one_mul,
      ← EReal.coe_neg, coe_max, hmag, ← EReal.coe_sub, coe_max_zero]
  unfold rowFused rowText
  rw [hF, hT]
  exact mix_law _ br

end Cert.MemAttn

end
-- ==== Proof.Consts.lean ====
/-
  The four float constants the two programs spell, as the extended reals their bit patterns denote: minus infinity
  (the neutral element a row maximum starts from), one (the numerator of the reciprocals), zero (the floor of the soft
  threshold and the start of the sums), and the threshold `f32 0.0025`, of which only this is used: it is a real
  number (a positive normal pattern, exponent field 118).
-/
import Idealize.ShloMosaic.PureOps.Ideal

noncomputable section

namespace Cert.MemAttn

open Idealize.ShloMosaic

/-- The pattern of `-inf` denotes the bottom of the extended reals. -/
theorem ofBits_neg_inf : Ideal.ofBits .f32 0xFF800000#32 = ⊥ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-- The threshold's pattern denotes a real number. -/
theorem ofBits_threshold : ∃ lam : ℝ, Ideal.ofBits .f32 0x3B23D70A#32 = (lam : EReal) := by
  have h : Ideal.ofBits .f32 0x3B23D70A#32 = Ideal.ieee 8 23 (0x3B23D70A#32 : BitVec 32) := rfl
  rw [h]
  unfold Ideal.ieee
  dsimp only
  rw [if_neg (by decide), if_neg (by decide)]
  exact ⟨_, rfl⟩

end Cert.MemAttn

end
-- ==== Proof.Layout.lean ====
/-
  A column kept as a trailing unit axis, read at an index: a length-`a` vector cast to `[a, 1]` holds at `(i, 0)`
  its `i`-th entry, and an `[a, 1]` column broadcast along its unit axis to `[a, b]` holds at `(p, c)` the column's
  `p`-th entry, whatever `c`. These are the shapes a row reduction with the axis kept takes on its way back to the
  matrix it normalises.
-/
import Idealize.ShloMosaic.Lib.Pipeline.Value
import Idealize.ShloMosaic.Lib.ValueIdx

namespace Cert.MemAttn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.MemAttn
-- ==== Proof.KernelValue.lean ====
/-
  What the fused kernel's body computes, read one entry at a time.

  From a block `x` of 2048 token rows and the whole bank `b` (1024 slots, 256 features) the body forms the score
  matrix `a = x · bᵀ`, softmaxes each row (shift by the row's maximum, exponentiate, multiply by the reciprocal of the
  row's sum), cuts the weights by the threshold, exponentiates again, and returns `tanh` of the mix `g · b` scaled by the
  reciprocal of `g`'s row sum. Read at row `p` and feature `d` this is the fused spelling of a row
  (`Cert.MemAttn.rowFused`) of the scores `a j = Σ_k x (p, k) · b (j, k)` against the bank's column `j ↦ b (j, d)`:
  nothing in the entry depends on another token row.

  The body is cut here into its stages — the score product, a row maximum and a row sum kept as a column, the
  reciprocal, the first softmax's numerators, the shrunk weights, the mixing product — and each stage is read at an
  index; the body is their composition by definition.
-/
import proofs.«127977_g57990648430879_cont_sun_c4_352_11_alg».proof.Proof.Gen.KernelIdeal.Skeleton
import proofs.«127977_g57990648430879_cont_sun_c4_352_11_alg».proof.Proof.RowLaw
import proofs.«127977_g57990648430879_cont_sun_c4_352_11_alg».proof.Proof.Consts
import proofs.«127977_g57990648430879_cont_sun_c4_352_11_alg».proof.Proof.Layout
import Idealize.ShloMosaic.Lib.ValueIdx
import Idealize.ShloMosaic.Lib.Pipeline.Value
import Idealize.ShloMosaic.PureOps.Ideal.Laws

noncomputable section

namespace Cert.MemAttn.KernelSide

open Cert.KernelIdeal Cert.KernelIdeal.Gen Idealize.ShloMosaic Idealize.ShloMosaic.ValueIdx
open scoped BigOperators

/-! ## The score product `x · bᵀ` at an entry -/

theorem scoreDot_lhs_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem scoreDot_lhs_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem scoreDot_rhs_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem scoreDot_rhs_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The scores of a block of token rows against every bank slot: both operands contracted along the feature axis. -/
def scores (x : Vec Ideal S2048x256 .f32) (b : Vec Ideal S1024x256 .bf16) : FVec Ideal S2048x1024 .f32 :=
  matmul (φ₁ := .bf16) (φ₂ := .bf16) dot_S2048x256_S1024x256_S2048x1024_1_1_0_0_n_n none (truncf .bf16 x bitsLt_bf16_f32)
    (shapeCast S1024x256 b shapeCasts_S1024x256_S1024x256 : FVec Ideal S1024x256 .bf16) (constant S2048x1024 .f32 0x00000000#32)

/-- Token row `p` against slot `j`: the sum over the features of the products. -/
theorem scores_apply (x : Vec Ideal S2048x256 .f32) (b : Vec Ideal S1024x256 .bf16) (p : Fin 2048) (j : Fin 1024) :
    scores x b (ix2 p j) = ∑ k : Fin 256, x (ix2 p k) * b (ix2 j k) := by
  unfold scores
  rw [shapeCast_self]
  simp only [matmul]
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p j) ((contrEquiv1 dot_S2048x256_S1024x256_S2048x1024_1_1_0_0_n_n 256 rfl rfl).symm k) = ix2 p k := funext fun a => Fin.ext (by
    match a with
    | ⟨0, _⟩ => exact scoreDot_lhs_0 _ _
    | ⟨1, _⟩ => exact (scoreDot_lhs_1 _ _).trans hk)
  have er : dot_S2048x256_S1024x256_S2048x1024_1_1_0_0_n_n.rhsIdx (ix2 p j) ((contrEquiv1 dot_S2048x256_S1024x256_S2048x1024_1_1_0_0_n_n 256 rfl rfl).symm k) = ix2 j k := funext fun a => Fin.ext (by
    match a with
    | ⟨0, _⟩ => exact scoreDot_rhs_0 _ _
    | ⟨1, _⟩ => exact (scoreDot_rhs_1 _ _).trans hk)
  rw [el, er]
  rfl

/-! ## The mixing product `g · b` at an entry -/

theorem mixDot_lhs_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem mixDot_lhs_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem mixDot_rhs_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem mixDot_rhs_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The weights of a block of token rows mixing the bank: contracted along the slot axis. -/
def mixed (g : FVec Ideal S2048x1024 .f32) (b : Vec Ideal S1024x256 .bf16) : FVec Ideal S2048x256 .f32 :=
  matmul (φ₁ := .bf16) (φ₂ := .bf16) dot_S2048x1024_S1024x256_S2048x256_1_0_0_1_n_n none (truncf .bf16 g bitsLt_bf16_f32)
    (shapeCast S1024x256 b shapeCasts_S1024x256_S1024x256 : FVec Ideal S1024x256 .bf16) (constant S2048x256 .f32 0x00000000#32)

/-- Token row `p`, feature `d`: the sum over the slots of weight times bank entry. -/
theorem mixed_apply (g : FVec Ideal S2048x1024 .f32) (b : Vec Ideal S1024x256 .bf16) (p : Fin 2048) (d : Fin 256) :
    mixed g b (ix2 p d) = ∑ k : Fin 1024, g (ix2 p k) * b (ix2 k d) := by
  unfold mixed
  rw [shapeCast_self]
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p d) ((contrEquiv1 dot_S2048x1024_S1024x256_S2048x256_1_0_0_1_n_n 1024 rfl rfl).symm k) = ix2 p k := funext fun a => Fin.ext (by
    match a with
    | ⟨0, _⟩ => exact mixDot_lhs_0 _ _
    | ⟨1, _⟩ => exact (mixDot_lhs_1 _ _).trans hk)
  have er : dot_S2048x1024_S1024x256_S2048x256_1_0_0_1_n_n.rhsIdx (ix2 p d) ((contrEquiv1 dot_S2048x1024_S1024x256_S2048x256_1_0_0_1_n_n 1024 rfl rfl).symm k) = ix2 k d := funext fun a => Fin.ext (by
    match a with
    | ⟨0, _⟩ => exact (mixDot_rhs_0 _ _).trans hk
    | ⟨1, _⟩ => exact mixDot_rhs_1 _ _)
  rw [el, er]
  rfl

/-! ## A row's maximum and a row's sum, kept as a column -/

/-- Each row's maximum, laid back over the row. -/
def rowMaxOver (v : FVec Ideal S2048x1024 .f32) : FVec Ideal S2048x1024 .f32 :=
  broadcastTo S2048x1024
    (shapeCast S2048x1 (multiReduction .maximumf [1] S2048 v 0xFF800000#32 reduces_S2048x1024_S2048 (.inl rfl) rfl)
      shapeCasts_S2048_S2048x1) broadcasts_S2048x1_S2048x1024

/-- Anywhere in row `p` it is the running maximum from `-∞` over the row's entries. -/
theorem rowMaxOver_apply (v : FVec Ideal S2048x1024 .f32) (p : Fin 2048) (j : Fin 1024) :
    rowMaxOver v (ix2 p j) = (Finset.univ : Finset (Fin 1024)).fold max ⊥ (fun j' => v (ix2 p j')) := by
  unfold rowMaxOver
  rw [broadcastTo_a1_ab_apply, shapeCast_a_a1_apply]
  refine (Ideal.multiReduction_maximumf_single v 0xFF800000#32 reduces_S2048x1024_S2048 (.inl rfl) rfl (ix1 p)).trans ?_
  rw [Ideal.ofBits_def, ofBits_neg_inf]
  exact congrArg (fun f : Fin 1024 → EReal => (Finset.univ : Finset (Fin 1024)).fold max ⊥ f)
    (funext fun k => congrArg v (funext fun a => Fin.ext (by match a with | ⟨0, _⟩ => rfl | ⟨1, _⟩ => rfl)))

/-- Each row's sum, as a column. -/
def rowSumCol (v : FVec Ideal S2048x1024 .f32) : FVec Ideal S2048x1 .f32 :=
  shapeCast S2048x1 (multiReduction .add [1] S2048 v 0x00000000#32 reduces_S2048x1024_S2048 (.inl rfl) rfl)
    shapeCasts_S2048_S2048x1

/-- Its entry for row `p` is the sum of the row's entries. -/
theorem rowSumCol_apply (v : FVec Ideal S2048x1024 .f32) (p : Fin 2048) (u : Fin 1) :
    rowSumCol v (ix2 p u) = ∑ j : Fin 1024, v (ix2 p j) := by
  unfold rowSumCol
  rw [shapeCast_a_a1_apply]
  refine (Ideal.multiReduction_add_single v 0x00000000#32 reduces_S2048x1024_S2048 (.inl rfl) rfl (ix1 p)).trans ?_
  exact Finset.sum_congr rfl fun k _ =>
    congrArg v (funext fun a => Fin.ext (by match a with | ⟨0, _⟩ => rfl | ⟨1, _⟩ => rfl))

/-- The reciprocal of a column, entry by entry: one over it. -/
def recipCol (v : FVec Ideal S2048x1 .f32) : FVec Ideal S2048x1 .f32 :=
  divf (broadcast S2048x1 (Scalar.ofBits .f32 0x3F800000#32)) v

theorem recipCol_apply (v : FVec Ideal S2048x1 .f32) (i : S2048x1.Idx) : recipCol v i = Ideal.div 1 (v i) := by
  show Ideal.div (Ideal.ofBits .f32 0x3F800000#32) (v i) = _
  rw [ofBits_one]

/-! ## The two softmax stages -/

/-- The first softmax's numerators: the scores less their row's maximum, exponentiated. -/
def numer (a : FVec Ideal S2048x1024 .f32) : FVec Ideal S2048x1024 .f32 := exp (subf a (rowMaxOver a))

theorem numer_apply (a : FVec Ideal S2048x1024 .f32) (p : Fin 2048) (j : Fin 1024) :
    numer a (ix2 p j) = expShift (fun j' => a (ix2 p j')) j := by
  show Ideal.exp (a (ix2 p j) - rowMaxOver a (ix2 p j)) = _
  rw [rowMaxOver_apply]
  rfl

/-- The shrunk weights: the numerators times the reciprocal of their row's sum, less the threshold, cut at zero. -/
def shrunk (e : FVec Ideal S2048x1024 .f32) : FVec Ideal S2048x1024 .f32 :=
  maximumf
    (subf (mulf e (broadcastTo S2048x1024 (recipCol (rowSumCol e)) broadcasts_S2048x1_S2048x1024))
      (broadcast S2048x1024 (Scalar.ofBits .f32 0x3B23D70A#32)))
    (broadcast S2048x1024 (Scalar.ofBits .f32 0x00000000#32))

theorem shrunk_apply (e : FVec Ideal S2048x1024 .f32) (p : Fin 2048) (j : Fin 1024) :
    shrunk e (ix2 p j)
      = max (e (ix2 p j) * Ideal.div 1 (∑ k : Fin 1024, e (ix2 p k)) - Ideal.ofBits .f32 0x3B23D70A#32) 0 := by
  show max (e (ix2 p j) * broadcastTo S2048x1024 (recipCol (rowSumCol e)) broadcasts_S2048x1_S2048x1024 (ix2 p j)
      - Ideal.ofBits .f32 0x3B23D70A#32) (Ideal.ofBits .f32 0x00000000#32) = _
  rw [broadcastTo_a1_ab_apply, recipCol_apply, rowSumCol_apply, ofBits_zero]

/-! ## The body -/

/-- The body's result is the composition of the stages. -/
theorem payload_eq (x : Vec Ideal S2048x256 .f32) (b : Vec Ideal S1024x256 .bf16) :
    k0_pay1 x b
      = tanh (mulf (mixed (exp (shrunk (numer (scores x b)))) b)
          (broadcastTo S2048x256 (recipCol (rowSumCol (exp (shrunk (numer (scores x b)))))) broadcasts_S2048x1_S2048x256)) :=
  rfl

/-- THE BODY AT AN ENTRY: row `p`, feature `d` of the result is the fused spelling of a row, of the scores of token
    row `p` against the bank's column `d`. -/
theorem payload_apply (x : Vec Ideal S2048x256 .f32) (b : Vec Ideal S1024x256 .bf16) (p : Fin 2048) (d : Fin 256) :
    k0_pay1 x b (ix2 p d)
      = rowFused (Ideal.ofBits .f32 0x3B23D70A#32) (fun j => ∑ k : Fin 256, x (ix2 p k) * b (ix2 j k))
          (fun j => b (ix2 j d)) := by
  rw [payload_eq]
  show Ideal.tanh (mixed (exp (shrunk (numer (scores x b)))) b (ix2 p d)
      * broadcastTo S2048x256 (recipCol (rowSumCol (exp (shrunk (numer (scores x b)))))) broadcasts_S2048x1_S2048x256 (ix2 p d)) = _
  rw [mixed_apply, broadcastTo_a1_ab_apply, recipCol_apply, rowSumCol_apply]
  have hs : ∀ j : Fin 1024, exp (shrunk (numer (scores x b))) (ix2 p j)
      = Ideal.exp (shrunkFused (Ideal.ofBits .f32 0x3B23D70A#32) (fun j' => ∑ k : Fin 256, x (ix2 p k) * b (ix2 j' k)) j) := fun j => by
    show Ideal.exp (shrunk (numer (scores x b)) (ix2 p j)) = _
    rw [shrunk_apply]
    unfold shrunkFused
    simp only [numer_apply, scores_apply]
  simp only [hs]
  rfl

end Cert.MemAttn.KernelSide

end
-- ==== Proof.KernelArray.lean ====
/-
  From the kernel's blocks to its whole result array.

  The grid has eight points; point `t` stages token rows `2048·t … 2048·t + 2047` (all 256 features) and the whole
  bank, runs the body on them, and writes its 2048 × 256 result back to the same rows of the result array. The bank
  the body sees is the bank argument after the host's change of float format, which is the identity on extended
  reals. Since an entry of the body's result depends on its own token row only, what point `t` writes is rows
  `2048·t …` of ONE array, `attnArray`: entry `(r, d)` is the fused spelling of a row of the scores of token row
  `r` against the bank's column `d`. The eight blocks tile the array (row `r` lies in block `r / 2048`), so after the
  run the result array is `attnArray` of the two arguments.
-/
import proofs.«127977_g57990648430879_cont_sun_c4_352_11_alg».proof.Proof.Gen.KernelIdeal.Value
import proofs.«127977_g57990648430879_cont_sun_c4_352_11_alg».proof.Proof.KernelValue
import Idealize.ShloMosaic.Lib.Pipeline.Value
import Idealize.ShloMosaic.Lib.StableHlo.Run
import Idealize.ShloMosaic.Lib.Tactic

noncomputable section

namespace Cert.MemAttn.KernelSide

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open scoped BigOperators

/-- The whole result: entry `(r, d)` is the fused row of token row `r`'s scores against the bank's column `d`. -/
def attnArray (X : S16384x256.Idx → Elt Ideal .f32) (Bk : S1024x256.Idx → Elt Ideal .f32) :
    S16384x256.Idx → Elt Ideal .f32 := fun i =>
  rowFused (Ideal.ofBits .f32 0x3B23D70A#32) (fun j => ∑ k : Fin 256, X (ix2 (i 0) k) * Bk (ix2 j k))
    (fun j => Bk (ix2 j (i 1)))

/-- The body on a block of token rows that are rows `2048·q …` of `X`, and on a bank that is `Bk`, gives at entry `y`
    the whole result's entry `i` whenever `i` is `y` moved down by `2048·q` rows. -/
theorem block_entry (X : S16384x256.Idx → Elt Ideal .f32) (Bk : S1024x256.Idx → Elt Ideal .f32)
    (x : Vec Ideal S2048x256 .f32) (b : Vec Ideal S1024x256 .bf16) (q : ℕ)
    (hx : ∀ (y : S2048x256.Idx) (i : S16384x256.Idx), (i 0).val = q * 2048 + (y 0).val → (i 1).val = (y 1).val → x y = X i)
    (hb : ∀ y : S1024x256.Idx, b y = Bk y)
    (y : S2048x256.Idx) (i : S16384x256.Idx) (hi0 : (i 0).val = q * 2048 + (y 0).val) (hi1 : (i 1).val = (y 1).val) :
    k0_pay1 x b y = attnArray X Bk i := by
  obtain ⟨p, d, rfl⟩ : ∃ (p : Fin 2048) (d : Fin 256), y = ix2 p d := ⟨y 0, y 1, eq_ix2 y⟩
  rw [payload_apply]
  unfold attnArray
  have hd : i 1 = d := Fin.ext hi1
  have hrow : ∀ k : Fin 256, x (ix2 p k) = X (ix2 (i 0) k) := fun k => hx (ix2 p k) (ix2 (i 0) k) hi0 rfl
  have hbank : ∀ (j : Fin 1024) (k : Fin 256), b (ix2 j k) = Bk (ix2 j k) := fun j k => hb _
  simp only [hrow, hbank, hd]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: point `t` takes token block `t`, the one bank block, and result block `t`. -/
theorem idx_facts : ∀ t : Fin cfg0.N, t.val < 8 ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The bank window's array when the region is entered: the bank argument after the host's format change. -/
theorem bank_window (c : Dev nD) :
    @Eq (S1024x256.Idx → Elt Ideal .bf16) (V m c main_v0)
      (truncf (F := Ideal) (s := S1024x256) (φ := .f32) .bf16 (m ((c : Thread nD τ).loc main_arg1)) bitsLt_bf16_f32) := by
  dsimp only [V, hostOps0]
  after_results

/-- WHAT POINT `t` WRITES BACK is block `t` of `attnArray` of the two arguments. -/
theorem flushed_eq (c : Dev nD) (t : Fin cfg0.N) :
    (dats m 0 c).flushed 2 t = ((cfg0.win 2).blk t).view.read (Elt Ideal)
      (attnArray (m ((c : Thread nD τ).loc main_arg0)) (m ((c : Thread nD τ).loc main_arg1))) := by
  rw [flushed2]
  unfold out0_2
  rw [View.canon_unit_zero hz]
  simp only [View.ld_unit_zero (S := S2048x256) hz, View.ld_unit_zero (S := S1024x256) hz]
  obtain ⟨hlt, e00, e01, e10, e11, e20, e21⟩ := idx_facts t
  funext y
  show k0_pay1 (iblk m c 0 t) (iblk m c 1 t) y
    = attnArray (m ((c : Thread nD τ).loc main_arg0)) (m ((c : Thread nD τ).loc main_arg1)) (((cfg0.win 2).blk t).view.emb y)
  refine block_entry (m ((c : Thread nD τ).loc main_arg0)) (m ((c : Thread nD τ).loc main_arg1)) (iblk m c 0 t) (iblk m c 1 t)
    t.val ?_ ?_ y (((cfg0.win 2).blk t).view.emb y) ?_ ?_
  · intro y' i h0 h1
    unfold iblk
    rw [View.read_apply]
    show V m c main_arg0 _ = _
    rw [V_main_arg0]
    refine congrArg _ (funext fun a => Fin.ext ?_)
    match a with
    | ⟨0, _⟩ => show win0_0.index t (0 : Fin 2) * 2048 + 1 * (y' 0).val = (i 0).val; omega
    | ⟨1, _⟩ => show win0_0.index t (1 : Fin 2) * 256 + 1 * (y' 1).val = (i 1).val; omega
  · intro y'
    unfold iblk
    rw [View.read_apply]
    show V m c main_v0 _ = _
    rw [bank_window]
    show m ((c : Thread nD τ).loc main_arg1) _ = _
    refine congrArg _ (funext fun a => Fin.ext ?_)
    match a with
    | ⟨0, _⟩ => show win0_1.index t (0 : Fin 2) * 1024 + 1 * (y' 0).val = (y' 0).val; omega
    | ⟨1, _⟩ => show win0_1.index t (1 : Fin 2) * 256 + 1 * (y' 1).val = (y' 1).val; omega
  · show win0_2.index t (0 : Fin 2) * 2048 + 1 * (y 0).val = t.val * 2048 + (y 0).val; omega
  · show win0_2.index t (1 : Fin 2) * 256 + 1 * (y 1).val = (y 1).val; omega

/-- An index of the result array is in point `t`'s block iff each coordinate is in the block's range on its axis. -/
theorem mem_blk (t : Fin cfg0.N) (i : S16384x256.Idx) :
    i ∈ ((cfg0.win 2).blk t).view.set
      ↔ ∀ a : Fin 2, win0_2.index t a * S2048x256.size a ≤ (i a).val
          ∧ (i a).val < win0_2.index t a * S2048x256.size a + S2048x256.size a := by
  show i ∈ ((View.whole main_v1).slice (win0_2.rect t)).set ↔ _
  rw [View.set_slice_whole, Rect.mem_set_unit]
  exact Iff.rfl

/-- The eight blocks tile the result array: row `r` is in block `r / 2048`. -/
theorem covered (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨_, _, _, _, _, e20, e21⟩ := idx_facts t
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 256 ≤ (i 1).val ∧ (i 1).val < win0_2.index t (1 : Fin 2) * 256 + 256
    omega

/-- THE RESULT ARRAY after the run is `attnArray` of the two arguments. -/
theorem final (c : Dev nD) :
    (dats m 0 c).arrAt 2 cfg0.N
      = attnArray (m ((c : Thread nD τ).loc main_arg0)) (m ((c : Thread nD τ).loc main_arg1)) :=
  (dats m 0 c).arrAt_eq_of_cover 2
    (attnArray (m ((c : Thread nD τ).loc main_arg0)) (m ((c : Thread nD τ).loc main_arg1)))
    (fun t _ => flushed_eq m c t) covered

/-- The kernel's run, read: the result array at `attnArray` of the arguments, the arguments unchanged. -/
theorem run : θ_run defs (onTc (τ := τ) (main (F := Ideal))) ⟨m, fun _ => 0, ρ⟩ fun r => ∀ c : Dev nD,
      r.2.mem ((c : Thread nD τ).loc main_v1)
        = attnArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.MemAttn.KernelSide

end
-- ==== Proof.RefValue.lean ====
/-
  What the reference computes, read one entry at a time.

  The reference scores every token row against every bank slot (`input · bankᵀ`), applies jax's softmax along the slots
  (shift by the row's maximum, exponentiate, divide by the row's sum), the soft threshold
  `sign p · max (|p| - λ) 0`, a second softmax, and `tanh` of the normalised weights mixing the bank. Its program
  spells each step as an operation on whole arrays; read at token row `r` and feature `d` through the generated
  read-at-an-index lemmas the result is the textbook spelling of a row (`Cert.MemAttn.rowText`) of the scores
  `a j = Σ_k X (r, k) · B (j, k)` against the bank's column `j ↦ B (j, d)`. The two row maxima, which those lemmas do
  not read, are read here as running maxima from `-∞` over the row; `max (-∞) m = m` and `0 + s = s` remove the
  initial values jax adds.
-/
import proofs.«127977_g57990648430879_cont_sun_c4_352_11_alg».proof.Proof.Gen.ReferenceIdeal.Read
import proofs.«127977_g57990648430879_cont_sun_c4_352_11_alg».proof.Proof.RowLaw
import proofs.«127977_g57990648430879_cont_sun_c4_352_11_alg».proof.Proof.Consts
import Idealize.ShloMosaic.Lib.ValueIdx
import Idealize.ShloMosaic.PureOps.Reduce
import Idealize.ShloMosaic.PureOps.Ideal.Laws

noncomputable section

namespace Cert.MemAttn.RefSide

open Cert.ReferenceIdeal Cert.ReferenceIdeal.Gen Cert.ReferenceIdeal.Read Idealize.ShloMosaic Idealize.ShloMosaic.ValueIdx
open scoped BigOperators

/-- The token array and the bank as the reference's stages take them. -/
abbrev Tokens : Type := (⟨S16384x256, .f32⟩ : BufTy).Contents (Elt Ideal)
abbrev Bank : Type := (⟨S1024x256, .f32⟩ : BufTy).Contents (Elt Ideal)

variable (X : Tokens) (B : Bank)

/-- Row `r` of the scores, one entry per bank slot. -/
abbrev scoreRow (r : Fin 16384) : Fin 1024 → EReal := fun j => val_main_v1 (F := Ideal) X B (ix2 r j)

/-- Token row `r` against slot `j`: the sum over the features of the products (the bank read through its transpose). -/
theorem score_apply (r : Fin 16384) (j : Fin 1024) :
    val_main_v1 (F := Ideal) X B (ix2 r j) = ∑ k : Fin 256, X (ix2 r k) * B (ix2 j k) := by
  rw [val_main_v1_apply]
  refine Finset.sum_congr rfl fun k _ => ?_
  rw [val_main_v0_apply]
  exact congrArg₂ (· * ·)
    (congrArg X (funext fun a => Fin.ext (by match a with | ⟨0, _⟩ => rfl | ⟨1, _⟩ => rfl)))
    (congrArg B (funext fun a => Fin.ext (by match a with | ⟨0, _⟩ => rfl | ⟨1, _⟩ => rfl)))

/-- A maximum-reduce along the slots from an initial `-∞`, at row `r`: the running maximum over the row. -/
theorem hostRowMax_apply (v : FVec Ideal S16384x1024 .f32) (c : S_.Idx → Ideal .f32)
    (hc : c (Shape.Idx.first h_S_) = ⊥) (r : Fin 16384) :
    Host.reduce (FloatOps.maximumf (F := Ideal) (φ := .f32)) v c reducesTo_S16384x1024_S16384_d1 h_S_ (ix1 r)
      = (Finset.univ : Finset (Fin 1024)).fold max ⊥ (fun j => v (ix2 r j)) := by
  rw [Host.reduce_eq_fold_single _ v c reducesTo_S16384x1024_S16384_d1 (by decide) h_S_ (ix1 r), hc]
  exact congrArg (fun f : Fin 1024 → EReal => (Finset.univ : Finset (Fin 1024)).fold max ⊥ f)
    (funext fun k => congrArg v (funext fun a => Fin.ext (by match a with | ⟨0, _⟩ => rfl | ⟨1, _⟩ => rfl)))

/-! ## The first softmax -/

/-- The first row maximum, laid back over the row. -/
theorem rowMax1_apply (r : Fin 16384) (j : Fin 1024) :
    val_main_v6 (F := Ideal) X B (ix2 r j) = (Finset.univ : Finset (Fin 1024)).fold max ⊥ (scoreRow X B r) := by
  rw [val_main_v6_apply, val_main_v5_apply, val_main_v4_apply, val_main_v3_apply, val_main_cst_0_apply]
  have hi : idx_main_v5 (idx_main_v6 (ix2 r j)) = ix1 r := funext fun a => Fin.ext (by match a with | ⟨0, _⟩ => rfl)
  rw [hi]
  unfold val_main_v2
  rw [hostRowMax_apply _ _ ofBits_neg_inf r]
  show max (Ideal.ofBits .f32 0xFF800000#32) _ = _
  rw [ofBits_neg_inf, max_bot_left]

/-- The first softmax's numerators. -/
theorem numer1_apply (r : Fin 16384) (j : Fin 1024) :
    val_main_v8 (F := Ideal) X B (ix2 r j) = expShift (scoreRow X B r) j := by
  rw [val_main_v8_apply, val_main_v7_apply, Ideal.hostUnary_exp_def, Ideal.subf_def, rowMax1_apply]
  rfl

/-- Their row sum, laid back over the row. -/
theorem rowSum1_apply (r : Fin 16384) (j : Fin 1024) :
    val_main_v11 (F := Ideal) X B (ix2 r j) = ∑ k : Fin 1024, val_main_v8 (F := Ideal) X B (ix2 r k) := by
  rw [val_main_v11_apply, val_main_v10_apply, val_main_v9_apply, val_main_cst_1_apply]
  show Ideal.ofBits .f32 0x00000000#32 + _ = _
  rw [ofBits_zero, zero_add]
  exact Finset.sum_congr rfl fun k _ => congrArg (val_main_v8 (F := Ideal) X B)
    (funext fun a => Fin.ext (by match a with | ⟨0, _⟩ => rfl | ⟨1, _⟩ => rfl))

/-- The first softmax's weights. -/
theorem weight_apply (r : Fin 16384) (j : Fin 1024) :
    val_main_v12 (F := Ideal) X B (ix2 r j) = weight (scoreRow X B r) j := by
  rw [val_main_v12_apply, Ideal.hostDivf_def, rowSum1_apply]
  simp only [numer1_apply]
  rfl

/-! ## The soft threshold -/

/-- Row `r` of the thresholded weights. -/
abbrev shrunkRow (r : Fin 16384) : Fin 1024 → EReal := fun j => val_main_v19 (F := Ideal) X B (ix2 r j)

theorem shrunk_apply (r : Fin 16384) (j : Fin 1024) :
    val_main_v19 (F := Ideal) X B (ix2 r j) = shrunkText (Ideal.ofBits .f32 0x3B23D70A#32) (scoreRow X B r) j := by
  rw [val_main_v19_apply, val_main_v13_apply, val_main_v18_apply, val_main_v16_apply, val_main_v14_apply,
    val_main_v15_apply, val_main_cst_2_apply, val_main_v17_apply, val_main_cst_3_apply, weight_apply,
    Ideal.mulf_def, Ideal.hostUnary_sign_def, Ideal.maximumf_def, Ideal.subf_def, Ideal.hostAbsf_def, Ideal.absf_def,
    Ideal.ofBits_def, Ideal.ofBits_def, ofBits_zero]
  rfl

/-! ## The second softmax and the mix -/

/-- The second row maximum, laid back over the row. -/
theorem rowMax2_apply (r : Fin 16384) (j : Fin 1024) :
    val_main_v24 (F := Ideal) X B (ix2 r j) = (Finset.univ : Finset (Fin 1024)).fold max ⊥ (shrunkRow X B r) := by
  rw [val_main_v24_apply, val_main_v23_apply, val_main_v22_apply, val_main_v21_apply, val_main_cst_5_apply]
  have hi : idx_main_v23 (idx_main_v24 (ix2 r j)) = ix1 r := funext fun a => Fin.ext (by match a with | ⟨0, _⟩ => rfl)
  rw [hi]
  unfold val_main_v20
  rw [hostRowMax_apply _ _ ofBits_neg_inf r]
  show max (Ideal.ofBits .f32 0xFF800000#32) _ = _
  rw [ofBits_neg_inf, max_bot_left]

/-- The second softmax's numerators. -/
theorem numer2_apply (r : Fin 16384) (j : Fin 1024) :
    val_main_v26 (F := Ideal) X B (ix2 r j)
      = Ideal.exp (shrunkRow X B r j - (Finset.univ : Finset (Fin 1024)).fold max ⊥ (shrunkRow X B r)) := by
  rw [val_main_v26_apply, val_main_v25_apply, Ideal.hostUnary_exp_def, Ideal.subf_def, rowMax2_apply]

/-- Their row sum, laid back over the row. -/
theorem rowSum2_apply (r : Fin 16384) (j : Fin 1024) :
    val_main_v29 (F := Ideal) X B (ix2 r j) = ∑ k : Fin 1024, val_main_v26 (F := Ideal) X B (ix2 r k) := by
  rw [val_main_v29_apply, val_main_v28_apply, val_main_v27_apply, val_main_cst_6_apply]
  show Ideal.ofBits .f32 0x00000000#32 + _ = _
  rw [ofBits_zero, zero_add]
  exact Finset.sum_congr rfl fun k _ => congrArg (val_main_v26 (F := Ideal) X B)
    (funext fun a => Fin.ext (by match a with | ⟨0, _⟩ => rfl | ⟨1, _⟩ => rfl))

/-- The second softmax's weights. -/
theorem weight2_apply (r : Fin 16384) (j : Fin 1024) :
    val_main_v30 (F := Ideal) X B (ix2 r j)
      = Ideal.div (Ideal.exp (shrunkRow X B r j - (Finset.univ : Finset (Fin 1024)).fold max ⊥ (shrunkRow X B r)))
          (∑ k : Fin 1024, Ideal.exp (shrunkRow X B r k - (Finset.univ : Finset (Fin 1024)).fold max ⊥ (shrunkRow X B r))) := by
  rw [val_main_v30_apply, Ideal.hostDivf_def, rowSum2_apply]
  simp only [numer2_apply]

/-- THE REFERENCE AT AN ENTRY: row `r`, feature `d` of the result is the textbook spelling of a row, of the scores of
    token row `r` against the bank's column `d`. -/
theorem result_apply (r : Fin 16384) (d : Fin 256) :
    val_main_v32 (F := Ideal) X B (ix2 r d)
      = rowText (Ideal.ofBits .f32 0x3B23D70A#32) (fun j => ∑ k : Fin 256, X (ix2 r k) * B (ix2 j k))
          (fun j => B (ix2 j d)) := by
  have ha : scoreRow X B r = fun j => ∑ k : Fin 256, X (ix2 r k) * B (ix2 j k) := funext (score_apply X B r)
  have hs : shrunkRow X B r = shrunkText (Ideal.ofBits .f32 0x3B23D70A#32) (scoreRow X B r) := funext (shrunk_apply X B r)
  rw [val_main_v32_apply, Ideal.hostUnary_tanh_def, val_main_v31_apply, ← ha]
  unfold rowText mixText
  refine congrArg Ideal.tanh (Finset.sum_congr rfl fun k _ => ?_)
  have hl : lidx_main_v31 (ix2 r d) k = ix2 r k :=
    funext fun a => Fin.ext (by match a with | ⟨0, _⟩ => rfl | ⟨1, _⟩ => rfl)
  have hr : ridx_main_v31 (ix2 r d) k = ix2 k d :=
    funext fun a => Fin.ext (by match a with | ⟨0, _⟩ => rfl | ⟨1, _⟩ => rfl)
  rw [hl, hr, weight2_apply, hs]

end Cert.MemAttn.RefSide

end
-- ==== Proof.Finite.lean ====
/-
  What the precondition gives: every entry of the token array and of the bank is a real number.

  The precondition says, of each argument, that every entry's absolute value is below `+∞` (the pattern of `+inf`).
  On the extended reals `|x| = max x (-x)` is `+∞` exactly at the two infinities, so an entry that passes is neither:
  it is a real. (The row law needs this: at an infinite score the two spellings of a row part.)
-/
import proofs.«127977_g57990648430879_cont_sun_c4_352_11_alg».proof.Pre_finite_inputs
import proofs.«127977_g57990648430879_cont_sun_c4_352_11_alg».proof.Proof.Gen.Pre_finite_inputs
import Idealize.ShloMosaic.PureOps.Ideal
import Idealize.ShloMosaic.Lib.ReduceAll
import Idealize.ShloMosaic.Lib.ValueIdx

noncomputable section

namespace Cert.MemAttn

open Idealize.ShloMosaic

instance : Subsingleton Cert.Pre_finite_inputs.S_.Idx := ⟨fun a b => funext fun d => d.elim0⟩

/-- An extended real whose absolute value is below the pattern of `+inf` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition both arguments hold reals only. -/
theorem real_of_pre (X : FVec Ideal Cert.Pre_finite_inputs.S16384x256 .f32) (Bk : FVec Ideal Cert.Pre_finite_inputs.S1024x256 .f32)
    (h : Cert.Pre_finite_inputs.fn (F := Ideal) X Bk = fun _ => 1#1) :
    (∀ i, ∃ r : ℝ, X i = (r : EReal)) ∧ (∀ i, ∃ r : ℝ, Bk i = (r : EReal)) := by
  have h0 := congrFun h ValueIdx.ix0
  dsimp only [Cert.Pre_finite_inputs.fn] at h0
  obtain ⟨hX, hB⟩ := IntOp.andi_eq_one.1 h0
  exact ⟨fun i => real_of_abs_lt_inf _ (Host.reduce_andi_all _ _ _ _ _ hX i),
    fun i => real_of_abs_lt_inf _ (Host.reduce_andi_all _ _ _ _ _ hB i)⟩

end Cert.MemAttn

end
-- ==== Proof.Bridge.lean ====
/-
  The kernel's result array and the reference's result are one array when the arguments hold reals.

  Entry `(r, d)` of the kernel's array is the fused spelling of a row, of the reference's the textbook spelling, both of
  the scores `a j = Σ_k X (r, k) · B (j, k)` of token row `r` against the bank's column `d` and with the same threshold.
  With real `X` and `B` the scores are reals (a finite sum of products of reals), the threshold is a real, and the row
  law joins the two.
-/
import proofs.«127977_g57990648430879_cont_sun_c4_352_11_alg».proof.Proof.KernelArray
import proofs.«127977_g57990648430879_cont_sun_c4_352_11_alg».proof.Proof.RefValue
import proofs.«127977_g57990648430879_cont_sun_c4_352_11_alg».proof.Proof.RowLaw
import proofs.«127977_g57990648430879_cont_sun_c4_352_11_alg».proof.Proof.Consts

noncomputable section

namespace Cert.MemAttn

open Idealize.ShloMosaic Idealize.ShloMosaic.ValueIdx
open scoped BigOperators

/-- On real arguments the kernel's whole-array function is the reference's last stage. -/
theorem attnArray_eq_reference (X : RefSide.Tokens) (Bk : RefSide.Bank)
    (hX : ∀ i, ∃ r : ℝ, X i = (r : EReal)) (hB : ∀ i, ∃ r : ℝ, Bk i = (r : EReal)) :
    KernelSide.attnArray X Bk = Cert.ReferenceIdeal.Read.val_main_v32 (F := Ideal) X Bk := by
  choose xr hxr using hX
  choose br hbr using hB
  obtain ⟨lam, hlam⟩ := ofBits_threshold
  funext i
  obtain ⟨r, d, rfl⟩ : ∃ (r : Fin 16384) (d : Fin 256), i = ix2 r d := ⟨i 0, i 1, eq_ix2 i⟩
  rw [RefSide.result_apply]
  unfold KernelSide.attnArray
  have hscore : (fun j : Fin 1024 => ∑ k : Fin 256, X (ix2 r k) * Bk (ix2 j k))
      = fun j : Fin 1024 => ((∑ k : Fin 256, xr (ix2 r k) * br (ix2 j k) : ℝ) : EReal) := funext fun j => by
    rw [← coe_sum]
    exact Finset.sum_congr rfl fun k _ => by rw [hxr, hbr, EReal.coe_mul]
  have hcol : (fun j : Fin 1024 => Bk (ix2 j d)) = fun j : Fin 1024 => ((br (ix2 j d) : ℝ) : EReal) :=
    funext fun j => hbr _
  show rowFused _ (fun j : Fin 1024 => ∑ k : Fin 256, X (ix2 r k) * Bk (ix2 j k)) (fun j : Fin 1024 => Bk (ix2 j d)) = _
  rw [hscore, hcol, hlam]
  exact row_law lam _ _

end Cert.MemAttn

end
-- ==== Proof.lean ====
/-
  Memory-bank attention, fused against textbook: `tanh (softmax (softshrink (softmax (x · bankᵀ))) · bank)`.

  The kernel walks the token rows in eight blocks of 2048 with the bank resident, and for each row spells the
  computation in a fused way (reciprocals instead of quotients, a one-sided soft threshold, no shift in the second
  softmax, its normaliser applied after the mix); the reference spells it step by step on whole arrays. Over the
  extended reals the kernel's result array is one function of the two arguments (Proof/KernelArray.lean over
  Proof/KernelValue.lean), the reference's result is its last stage read entry by entry (Proof/RefValue.lean), and when
  every entry of the arguments is a real number — which is what the precondition says (Proof/Finite.lean) — the two are
  equal entry by entry by the row law (Proof/RowLaw.lean, joined in Proof/Bridge.lean). The three programs terminate
  without a fault and leave their arguments unchanged; the idealisation rewrote nothing, so it preserves trivially.
-/
import proofs.«127977_g57990648430879_cont_sun_c4_352_11_alg».proof.Defs
import proofs.«127977_g57990648430879_cont_sun_c4_352_11_alg».proof.Proof.Gen.Kernel
import proofs.«127977_g57990648430879_cont_sun_c4_352_11_alg».proof.Proof.Gen.Kernel.Skeleton
import proofs.«127977_g57990648430879_cont_sun_c4_352_11_alg».proof.Proof.Gen.Kernel.Launch
import proofs.«127977_g57990648430879_cont_sun_c4_352_11_alg».proof.Proof.Gen.Kernel.Points
import proofs.«127977_g57990648430879_cont_sun_c4_352_11_alg».proof.Proof.Gen.Kernel.Frame
import proofs.«127977_g57990648430879_cont_sun_c4_352_11_alg».proof.Proof.Gen.KernelIdeal
import proofs.«127977_g57990648430879_cont_sun_c4_352_11_alg».proof.Proof.Gen.KernelIdeal.Skeleton
import proofs.«127977_g57990648430879_cont_sun_c4_352_11_alg».proof.Proof.Gen.KernelIdeal.Launch
import proofs.«127977_g57990648430879_cont_sun_c4_352_11_alg».proof.Proof.Gen.KernelIdeal.Points
import proofs.«127977_g57990648430879_cont_sun_c4_352_11_alg».proof.Proof.Gen.KernelIdeal.Frame
import proofs.«127977_g57990648430879_cont_sun_c4_352_11_alg».proof.Proof.Gen.ReferenceIdeal
import proofs.«127977_g57990648430879_cont_sun_c4_352_11_alg».proof.Proof.Gen.Pre_finite_inputs
import proofs.«127977_g57990648430879_cont_sun_c4_352_11_alg».proof.Proof.Gen.KernelIdeal.Value
import proofs.«127977_g57990648430879_cont_sun_c4_352_11_alg».proof.Proof.Gen.ReferenceIdeal.Run
import proofs.«127977_g57990648430879_cont_sun_c4_352_11_alg».proof.Proof.Gen.ReferenceIdeal.Read
import proofs.«127977_g57990648430879_cont_sun_c4_352_11_alg».proof.Proof.KernelArray
import proofs.«127977_g57990648430879_cont_sun_c4_352_11_alg».proof.Proof.RefValue
import proofs.«127977_g57990648430879_cont_sun_c4_352_11_alg».proof.Proof.Finite
import proofs.«127977_g57990648430879_cont_sun_c4_352_11_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree and hold reals only, the kernel's result array and the reference's result are the same
    array: the fused rows against the textbook rows. -/
theorem algebraic : Cert.algebraic_KernelIdeal_ReferenceIdeal := by
  intro m ρ m' ρ' hpre hagree
  refine ⟨fun c => Cert.MemAttn.KernelSide.attnArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.MemAttn.KernelSide.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hB⟩ := Cert.MemAttn.real_of_pre _ _ (hpre c)
  rw [Cert.ReferenceIdeal.Read.val_main_v32_eq, (hagree c).1, (hagree c).2]
  exact (Cert.MemAttn.attnArray_eq_reference _ _ hX hB).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
